-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg2 : IVec S1000000 32) (main_arg3 : IVec S1000000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1000000 32 := broadcastInDim S1000000 ![] bcast_S_S1000000 main_c_6
  let main_v20 : IVec S1000000 1 := cmpi .sge main_arg2 main_v19
  let main_c_7 : IVec S_ 32 := constantI S_ 32 100000#32
  let main_v21 : IVec S1000000 32 := broadcastInDim S1000000 ![] bcast_S_S1000000 main_c_7
  let main_v22 : IVec S1000000 1 := cmpi .slt main_arg2 main_v21
  let main_v23 : IVec S1000000 1 := andi main_v20 main_v22
  let main_c_8 : IVec S_ 1 := constantI S_ 1 1#1
  let main_v24 : IVec S_ 1 := (fun x v => Host.reduce IntOp.andi x v reducesTo_S1000000_S_d0 h_S_) main_v23 main_c_8
  let main_v25 : IVec S_ 1 := andi main_v18 main_v24
  let main_c_9 : IVec S_ 32 := constantI S_ 32 0#32
  let main_v26 : IVec S1000000 32 := broadcastInDim S1000000 ![] bcast_S_S1000000 main_c_9
  let main_v27 : IVec S1000000 1 := cmpi .sge main_arg3 main_v26
  let main_c_10 : IVec S_ 32 := constantI S_ 32 100000#32
  let main_v28 : IVec S1000000 32 := broadcastInDim S1000000 ![] bcast_S_S1000000 main_c_10
  let main_v29 : IVec S1000000 1 := cmpi .slt main_arg3 main_v28
  let main_v30 : IVec S1000000 1 := andi main_v27 main_v29
  let main_c_11 : IVec S_ 1 := constantI S_ 1 1#1
  let main_v31 : IVec S_ 1 := (fun x v => Host.reduce IntOp.andi x v reducesTo_S1000000_S_d0 h_S_) main_v30 main_c_11
  let main_v32 : IVec S_ 1 := andi main_v25 main_v31
  main_v32

def fn {F : FTy → Type} [FloatOps F] (main_arg0 : FVec F S100000x64 .f32) (main_arg1 : FVec F S1000000x64 .f32) (main_arg2 : IVec S1000000 32) (main_arg3 : IVec S1000000 32) (main_arg4 : FVec F S192x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S_ : Shape := ⟨0, ![]⟩
abbrev S1000000x1 : Shape := ⟨2, ![1000000, 1]⟩
abbrev S64x64 : Shape := ⟨2, ![64, 64]⟩
abbrev S8192x64 : Shape := ⟨2, ![8192, 64]⟩
abbrev S1x64 : Shape := ⟨2, ![1, 64]⟩

abbrev nBuf : Space → Nat
  | .hbm => 48
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x64, .f32⟩
  | .hbm, ⟨5, _⟩ => ⟨S64, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S100000x64, .bf16⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .bf16⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .bf16⟩
  | .hbm, ⟨41, _⟩ => ⟨S64x64, .f32⟩
  | .hbm, ⟨42, _⟩ => ⟨S64x64, .bf16⟩
  | .hbm, ⟨43, _⟩ => ⟨S64x64, .f32⟩
  | .hbm, ⟨44, _⟩ => ⟨S64x64, .bf16⟩
  | .hbm, ⟨45, _⟩ => ⟨S64x64, .f32⟩
  | .hbm, ⟨46, _⟩ => ⟨S64x64, .bf16⟩
  | .hbm, ⟨47, _⟩ => ⟨S1000000x64, .f32⟩
  | .local _ .vmem, ⟨0, _⟩ => ⟨S8192x64, .bf16⟩
  | .local _ .vmem, ⟨1, _⟩ => ⟨S8192x64, .bf16⟩
  | .local _ .vmem, ⟨2, _⟩ => ⟨S8192x64, .f32⟩
  | .local _ .vmem, ⟨3, _⟩ => ⟨S8192x64, .f32⟩
  | .local _ .vmem, ⟨4, _⟩ => ⟨S8192x64, .bf16⟩
  | .local _ .vmem, ⟨5, _⟩ => ⟨S8192x64, .bf16⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S64, .f32⟩
  | .local _ .vmem, ⟨10, _⟩ => ⟨S8192x64, .f32⟩
  | .local _ .vmem, ⟨11, _⟩ => ⟨S8192x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_c_3 : Ref sig .tc := ⟨.hbm, 23, rfl⟩
abbrev main_v3 : Ref sig .tc := ⟨.hbm, 24, rfl⟩
abbrev main_v4 : Ref sig .tc := ⟨.hbm, 25, rfl⟩
abbrev main_c_4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_5 : Ref sig .tc := ⟨.hbm, 32, rfl⟩
abbrev main_v10 : Ref sig .tc := ⟨.hbm, 33, rfl⟩
abbrev main_v11 : Ref sig .tc := ⟨.hbm, 34, rfl⟩
abbrev main_c_6 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S1000000 : S_.BroadcastsInDim S1000000 (![] : Fin 0 → Fin S1000000.rank)
  bitsLt_bf16_f32 : FTy.bits .bf16 < FTy.bits .f32
  bcast_S1000000_S1000000x1_0 : S1000000.BroadcastsInDim S1000000x1 (![0] : Fin 1 → Fin S1000000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  gather_S100000x64_S1000000x1_S1000000x64_1_0_n_n_0_1_164_wf : GatherDims.WF S100000x64 S1000000x1 S1000000x64 [1] [0] [] [0] [] 1 ![1, 64]
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S1000000x64.size a
  hwx0_0 : ∀ i : grid0.Coords, EltTy.bits .bf16 = 32 ∨ (Rect.unit (s := S1000000x64) (fun a => cc0_transform_0 i a * S8192x64.size a) (fun a => (Pipeline.Clip.of (cc0_transform_0 i a) (S8192x64.size a) (S1000000x64.size a)).extent (S8192x64.size a)) fun a => Pipeline.Clip.inb (Pipeline.Clip.ok_of (hstart0_0 i a))).WholeWords (EltTy.packing .bf16)
  hwxs0_0 : ∀ i : grid0.Coords, EltTy.bits .bf16 = 32 ∨ (Rect.unit (s := S8192x64) (fun _ => 0) (fun a => (Pipeline.Clip.of (cc0_transform_0 i a) (S8192x64.size a) (S1000000x64.size a)).extent (S8192x64.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x64.size a < S1000000x64.size a
  hwx0_1 : ∀ i : grid0.Coords, EltTy.bits .f32 = 32 ∨ (Rect.unit (s := S1000000x64) (fun a => cc0_transform_1 i a * S8192x64.size a) (fun a => (Pipeline.Clip.of (cc0_transform_1 i a) (S8192x64.size a) (S1000000x64.size a)).extent (S8192x64.size a)) fun a => Pipeline.Clip.inb (Pipeline.Clip.ok_of (hstart0_1 i a))).WholeWords (EltTy.packing .f32)
  hwxs0_1 : ∀ i : grid0.Coords, EltTy.bits .f32 = 32 ∨ (Rect.unit (s := S8192x64) (fun _ => 0) (fun a => (Pipeline.Clip.of (cc0_transform_1 i a) (S8192x64.size a) (S1000000x64.size a)).extent (S8192x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S1000000x64.size a
  hwx0_2 : ∀ i : grid0.Coords, EltTy.bits .bf16 = 32 ∨ (Rect.unit (s := S1000000x64) (fun a => cc0_transform_2 i a * S8192x64.size a) (fun a => (Pipeline.Clip.of (cc0_transform_2 i a) (S8192x64.size a) (S1000000x64.size a)).extent (S8192x64.size a)) fun a => Pipeline.Clip.inb (Pipeline.Clip.ok_of (hstart0_2 i a))).WholeWords (EltTy.packing .bf16)
  hwxs0_2 : ∀ i : grid0.Coords, EltTy.bits .bf16 = 32 ∨ (Rect.unit (s := S8192x64) (fun _ => 0) (fun a => (Pipeline.Clip.of (cc0_transform_2 i a) (S8192x64.size a) (S1000000x64.size a)).extent (S8192x64.size a)) fun a => (Nat.zero_add _).trans_le (Pipeline.Clip.extent_le (Pipeline.Clip.ok_of (hstart0_2 i a)))).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S8192x64.size a < S1000000x64.size a
  hwx0_7 : ∀ i : grid0.Coords, EltTy.bits .f32 = 32 ∨ (Rect.unit (s := S1000000x64) (fun a => cc0_transform_7 i a * S8192x64.size a) (fun a => (Pipeline.Clip.of (cc0_transform_7 i a) (S8192x64.size a) (S1000000x64.size a)).extent (S8192x64.size a)) fun a => Pipeline.Clip.inb (Pipeline.Clip.ok_of (hstart0_7 i a))).WholeWords (EltTy.packing .f32)
  hwxs0_7 : ∀ i : grid0.Coords, EltTy.bits .f32 = 32 ∨ (Rect.unit (s := S8192x64) (fun _ => 0) (fun a => (Pipeline.Clip.of (cc0_transform_7 i a) (S8192x64.size a) (S1000000x64.size a)).extent (S8192x64.size a)) fun a => (Nat.zero_add _).trans_le (Pipeline.Clip.extent_le (Pipeline.Clip.ok_of (hstart0_7 i a)))).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpecClip (Memref.whole main_v9) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S8192x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v16) S8192x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v23) S8192x64.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S_ : Shape := ⟨0, ![]⟩
abbrev S1000000x1 : Shape := ⟨2, ![1000000, 1]⟩
abbrev S1000000x192 : Shape := ⟨2, ![1000000, 192]⟩
abbrev S1x64 : Shape := ⟨2, ![1, 64]⟩

abbrev nBuf : Space → Nat
  | .hbm => 32
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x64, .f32⟩
  | .hbm, ⟨5, _⟩ => ⟨S64, .f32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x64, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S1000000x192, .f32⟩
  | .hbm, ⟨25, _⟩ => ⟨S1000000x64, .f32⟩
  | .hbm, ⟨26, _⟩ => ⟨S1x64, .f32⟩
  | .hbm, ⟨27, _⟩ => ⟨S1000000x64, .f32⟩
  | .hbm, ⟨28, _⟩ => ⟨S1000000x64, .f32⟩
  | .hbm, ⟨29, _⟩ => ⟨S_, .f32⟩
  | .hbm, ⟨30, _⟩ => ⟨S1000000x64, .f32⟩
  | .hbm, ⟨31, _⟩ => ⟨S1000000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  gather_S100000x64_S1000000x1_S1000000x64_1_0_n_n_0_1_164_wf : GatherDims.WF S100000x64 S1000000x1 S1000000x64 [1] [0] [] [0] [] 1 ![1, 64]
  dot_S1000000x192_S192x64_S1000000x64_1_0_0_1_n_n_wf : DotDims.WF S1000000x192 S192x64 S1000000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf

class Facts : Prop extends Facts₀ where

variable [Facts]
-- ==== Proof.BodyK.lean ====
/-
  The word-level kernel's body at one grid point, the pipeline's proof data, and the frame: the program runs to the end
  and leaves its arguments unchanged. What the result array ends holding is not stated here (the value is read at the
  extended reals, of the idealized program).
-/
import proofs.«411550_j31447750542169_3_alg».proof.Proof.Gen.Kernel.Frame
import proofs.«411550_j31447750542169_3_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store span a whole staging buffer -/

abbrev rRows : Rect S8192x64 := Rect.unit (s := S8192x64) ![0, 0] S8192x64.size inb_S8192x64_S8192x64_0_0
abbrev rW : Rect S64x64 := Rect.unit (s := S64x64) ![0, 0] S64x64.size inb_S64x64_S64x64_0_0
abbrev rB : Rect S64 := Rect.unit (s := S64) ![0] S64.size inb_S64_S64_0

/-- What the result's staging buffer holds after the body, from what the seven input buffers hold: the one store,
    over the whole buffer, of the body's arithmetic on the seven whole loads. -/
def outBuf (xs : Vec F S8192x64 .bf16) (xe : Vec F S8192x64 .f32) (xd : Vec F S8192x64 .bf16)
    (ws we wd : Vec F S64x64 .bf16) (b : Vec F S64 .f32) : Vec F S8192x64 .f32 :=
  View.canon [⟨rRows, k0_pay1 (View.ld xs rRows) (View.ld xd rRows) (View.ld xe rRows) (View.ld ws rW) (View.ld we rW) (View.ld wd rW) (View.ld b rB)⟩]

/-- The one store covers the buffer. -/
theorem cover_out (p0 : Vec F S8192x64 .f32) (y : S8192x64.Idx) :
    ∃ pc ∈ ([⟨rRows, p0⟩] : List (View.Piece (Elt F) S8192x64 .f32)), y ∈ pc.1.set :=
  View.cover_of_tiled [⟨rRows, p0⟩] S8192x64.size (by rfl) y

set_option maxHeartbeats 1000000 in
/-- The body on eight whole staging memrefs, the seven inputs' at contents `xs … b` and the result's at anything: it
    loads the seven, stores the arithmetic of them over the whole result buffer, and leaves the inputs as they were. -/
theorem sound_kernel (c : Dev nD) (E : Set ℕ) (i : grid0.Coords)
    (arg1 : Memref sig .tc .vmem S8192x64 .bf16) (harg1 : arg1.IsWhole) (arg2 : Memref sig .tc .vmem S8192x64 .f32) (harg2 : arg2.IsWhole)
    (arg3 : Memref sig .tc .vmem S8192x64 .bf16) (harg3 : arg3.IsWhole) (arg4 : Memref sig .tc .vmem S64x64 .bf16) (harg4 : arg4.IsWhole)
    (arg5 : Memref sig .tc .vmem S64x64 .bf16) (harg5 : arg5.IsWhole) (arg6 : Memref sig .tc .vmem S64x64 .bf16) (harg6 : arg6.IsWhole)
    (arg7 : Memref sig .tc .vmem S64 .f32) (harg7 : arg7.IsWhole) (arg8 : Memref sig .tc .vmem S8192x64 .f32) (harg8 : arg8.IsWhole)
    (xs : Vec F S8192x64 .bf16) (xe : Vec F S8192x64 .f32) (xd : Vec F S8192x64 .bf16) (ws we wd : Vec F S64x64 .bf16) (b : Vec F S64 .f32)
    (K : PUnit → sProp 𝕄) :
    iprop(owns (c : Thread nD τ) arg1 fullShare xs ∗ owns (c : Thread nD τ) arg2 fullShare xe ∗ owns (c : Thread nD τ) arg3 fullShare xd
        ∗ owns (c : Thread nD τ) arg4 fullShare ws ∗ owns (c : Thread nD τ) arg5 fullShare we ∗ owns (c : Thread nD τ) arg6 fullShare wd
        ∗ owns (c : Thread nD τ) arg7 fullShare b ∗ (∃ d, owns (c : Thread nD τ) arg8 fullShare d)
        ∗ (iprop(owns (c : Thread nD τ) arg1 fullShare xs ∗ owns (c : Thread nD τ) arg2 fullShare xe ∗ owns (c : Thread nD τ) arg3 fullShare xd
            ∗ owns (c : Thread nD τ) arg4 fullShare ws ∗ owns (c : Thread nD τ) arg5 fullShare we ∗ owns (c : Thread nD τ) arg6 fullShare wd
            ∗ owns (c : Thread nD τ) arg7 fullShare b ∗ owns (c : Thread nD τ) arg8 fullShare (outBuf xs xe xd ws we wd b)) -∗ K ⟨⟩))
      ⊢ wp frame (wpE (defs₀ (F := F)) Variants.none c none) E
          (cc0__edge_apply_kernel i arg1 harg1 arg2 harg2 arg3 harg3 arg4 harg4 arg5 harg5 arg6 harg6 arg7 harg7 arg8 harg8) K := by
  simp only [cc0__edge_apply_kernel_eq_skeleton]; unfold cc0__edge_apply_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-- The whole-buffer store leaves the body's arithmetic on the whole-buffer loads: the one store is the buffer, each
    load the buffer it reads. -/
theorem outBuf_eq (xs : Vec F S8192x64 .bf16) (xe : Vec F S8192x64 .f32) (xd : Vec F S8192x64 .bf16)
    (ws we wd : Vec F S64x64 .bf16) (b : Vec F S64 .f32) :
    outBuf xs xe xd ws we wd b = k0_pay1 xs xd xe ws we wd b := by
  have hz2 : (![0, 0] : Fin 2 → Nat) = fun _ => 0 := funext fun a => by fin_cases a <;> rfl
  have hz1 : (![0] : Fin 1 → Nat) = fun _ => 0 := funext fun a => by fin_cases a; rfl
  unfold outBuf
  rw [View.canon_unit_zero (S := S8192x64) hz2]
  simp only [View.ld_unit_zero (S := S8192x64) hz2, View.ld_unit_zero (S := S64x64) hz2, View.ld_unit_zero (S := S64) hz1]

variable (m : (ℓ : Loc nD τ sig) → Buf (Elt F) ℓ) (ρ : Dev nD → PrngReg)

/-! ## The proof data -/

/-- A staging buffer of a window whose last block overhangs the array, filled out: the block's rows inside the array,
    and on the rows past the array's end (the last point's only) a word nothing that is written back depends on. -/
def srcBuf (c : Dev nD) (t : Fin cfg0.N) : Vec F S8192x64 .bf16 :=
  win0_0.fill (grid0.coords t) (fun _ => Scalar.ofBits .bf16 0#16) (iblk m c 0 t)
def edgeBuf (c : Dev nD) (t : Fin cfg0.N) : Vec F S8192x64 .f32 :=
  win0_1.fill (grid0.coords t) (fun _ => Scalar.ofBits .f32 0#32) (iblk m c 1 t)
def dstBuf (c : Dev nD) (t : Fin cfg0.N) : Vec F S8192x64 .bf16 :=
  win0_2.fill (grid0.coords t) (fun _ => Scalar.ofBits .bf16 0#16) (iblk m c 2 t)

/-- The proof data of the one pipeline on core `c`: the arrays as the launch finds them; after the body at point `t`
    the three row windows' buffers at their blocks filled out, the weights' and the bias's at their blocks, the result's
    at the body's arithmetic of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => srcBuf m c t
    | ⟨1, _⟩ => edgeBuf m c t
    | ⟨2, _⟩ => dstBuf m c t
    | ⟨3, _⟩ => iblk m c 3 t
    | ⟨4, _⟩ => iblk m c 4 t
    | ⟨5, _⟩ => iblk m c 5 t
    | ⟨6, _⟩ => iblk m c 6 t
    | ⟨7, _⟩ => outBuf (srcBuf m c t) (edgeBuf m c t) (dstBuf m c t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = srcBuf m c t := by dsimp only [dats]
theorem after_1 (c : Dev nD) (t : Fin cfg0.N) : (dats m 0 c).after 1 t = edgeBuf m c t := by dsimp only [dats]
theorem after_2 (c : Dev nD) (t : Fin cfg0.N) : (dats m 0 c).after 2 t = dstBuf m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBuf (srcBuf m c t) (edgeBuf m c t) (dstBuf m c t) (iblk m c 3 t) (iblk m c 4 t) (iblk m c 5 t) (iblk m c 6 t) := by
  dsimp only [dats]

/-- The three row windows are fetched at every point: the body finds the block on the rows inside the array and, past
    the array's end, whatever the overwrite before the fetch left (`d`). -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
/-- The weights' and the bias's one buffer holds the block at every point, fetched there or not. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation, the result window forgotten -/

/-- The result window is the one whose contents the frame never reads: nothing is named of what the body leaves in it. -/
abbrev forgetsOut : Fin 8 → Bool := fun | 0 => false | 1 => false | 2 => false | 3 => false | 4 => false | 5 => false | 6 => false | 7 => true | ⟨_ + 8, h⟩ => absurd h (Nat.not_lt.2 (Nat.le_add_left _ _))

/-- The library's obligation at every point with the result's buffer handed over and taken back at any contents: the
    three row windows hold their blocks on the rows inside the array before and after, the weights and the bias theirs. -/
theorem body_obligation_forget (c : Dev nD) :
    BodyObligationLoose (dats (F := F) m 0 c) (defs₀ (F := F)) Variants.none () Set.univ forgetsOut := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩⟩
  rw [before_0 m c t d0, before_1 m c t d1, before_2 m c t d2, before_3 m c t d3, before_4 m c t d4, before_5 m c t d5,
    before_6 m c t d6]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have h0 : win0_0.cut (grid0.coords t) (srcBuf m c t) = iblk m c 0 t := win0_0.cut_fill _ _ _
  have h1 : win0_1.cut (grid0.coords t) (edgeBuf m c t) = iblk m c 1 t := win0_1.cut_fill _ _ _
  have h2 : win0_2.cut (grid0.coords t) (dstBuf m c t) = iblk m c 2 t := win0_2.cut_fill _ _ _
  isplitl [H0]
  · iexists d0
    rw [after_0]
    change _ ⊢ owns (c : Thread nD τ) (st0_0 t) fullShare (win0_0.fill (grid0.coords t) d0 (win0_0.cut (grid0.coords t) (srcBuf m c t)))
    rw [h0]; try iexact H0
  isplitl [H1]
  · iexists d1
    rw [after_1]
    change _ ⊢ owns (c : Thread nD τ) (st0_1 t) fullShare (win0_1.fill (grid0.coords t) d1 (win0_1.cut (grid0.coords t) (edgeBuf m c t)))
    rw [h1]; try iexact H1
  isplitl [H2]
  · iexists d2
    rw [after_2]
    change _ ⊢ owns (c : Thread nD τ) (st0_2 t) fullShare (win0_2.fill (grid0.coords t) d2 (win0_2.cut (grid0.coords t) (dstBuf m c t)))
    rw [h2]; try iexact H2
  isplitl [H3]; · rw [after_3]; iexact H3
  isplitl [H4]; · rw [after_4]; iexact H4
  isplitl [H5]; · rw [after_5]; iexact H5
  isplitl [H6]; · rw [after_6]; iexact H6
  iexists _; iexact H7

/-! ## The run and the frame -/

set_option backward.isDefEq.respectTransparency.types false in
/-- At the compiled mesh, for any values, from any memory with zero counters: every weakly fair execution of @main
    terminates; every input array of the pipeline ends as the launch found it, nothing is said of the result array, and
    every other unscoped buffer ends as the launch found it. -/
theorem run_forget : θ_run defs (onTc (τ := τ) (main (F := F))) (s₀ m ρ)
    (Pipeline.RDat.FramePost (cfgs 0) (fun c => (dats m 0 c).toRForget forgetsOut) (V m)) :=
  Pipeline.RDat.θ_run_frame cfgs (0 : Fin 1) launch0 defs₀ Variants.none (fun c => (dats m 0 c).toRForget forgetsOut) m ρ main
    (hbody := fun c => (body_obligation_forget m c).toRForget)
    (hshare := fun c => ((dats m 0 c).toRForget forgetsOut).share_full fun _ => rfl)
    (howed := fun _ _ => rfl) (V := V m) (hmain := hmain m Variants.none) (hA := A_eq m) (hΦ := fun _ _ => rfl)

/-- The frame: the program runs to the end and its six argument arrays end unchanged — the edge features and the bias
    are arrays the pipeline stages as inputs; the node table, the two index arrays and the weights are written by no
    host operation and staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.RDat.FramePost (cfgs 0) (fun c => (dats m 0 c).toRForget forgetsOut) (V m) r) c =>
    ⟨((h c).2 main_arg0 (Pipeline.mem_restRefs_of main_arg0 (by decide) (by decide))).trans (V_main_arg0 m c),
      (Pipeline.RDat.FramePost.arr_in (cfg₁ := cfgs 0) h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in (cfg₁ := cfgs 0) h c 6 rfl).trans ((A_eq m c 6).trans (V_main_arg5 m c))⟩) (run_forget m ρ)

end Cert.Kernel.Body

end
-- ==== Proof.BodyI.lean ====
/-
  The idealized kernel's body at one grid point, and the pipeline's proof data.
-/
import proofs.«411550_j31447750542169_3_alg».proof.Proof.Gen.KernelIdeal.Frame
import proofs.«411550_j31447750542169_3_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the one store span a whole staging buffer -/

abbrev rRows : Rect S8192x64 := Rect.unit (s := S8192x64) ![0, 0] S8192x64.size inb_S8192x64_S8192x64_0_0
abbrev rW : Rect S64x64 := Rect.unit (s := S64x64) ![0, 0] S64x64.size inb_S64x64_S64x64_0_0
abbrev rB : Rect S64 := Rect.unit (s := S64) ![0] S64.size inb_S64_S64_0

/-- What the result's staging buffer holds after the body, from what the seven input buffers hold: the one store,
    over the whole buffer, of the body's arithmetic on the seven whole loads. -/
def outBuf (xs : Vec F S8192x64 .bf16) (xe : Vec F S8192x64 .f32) (xd : Vec F S8192x64 .bf16)
    (ws we wd : Vec F S64x64 .bf16) (b : Vec F S64 .f32) : Vec F S8192x64 .f32 :=
  View.canon [⟨rRows, k0_pay1 (View.ld xs rRows) (View.ld xd rRows) (View.ld xe rRows) (View.ld ws rW) (View.ld we rW) (View.ld wd rW) (View.ld b rB)⟩]

/-- The one store covers the buffer. -/
theorem cover_out (p0 : Vec F S8192x64 .f32) (y : S8192x64.Idx) :
    ∃ pc ∈ ([⟨rRows, p0⟩] : List (View.Piece (Elt F) S8192x64 .f32)), y ∈ pc.1.set :=
  View.cover_of_tiled [⟨rRows, p0⟩] S8192x64.size (by rfl) y

set_option maxHeartbeats 1000000 in
/-- The body on eight whole staging memrefs, the seven inputs' at contents `xs … b` and the result's at anything: it
    loads the seven, stores the arithmetic of them over the whole result buffer, and leaves the inputs as they were. -/
theorem sound_kernel (c : Dev nD) (E : Set ℕ) (i : grid0.Coords)
    (arg1 : Memref sig .tc .vmem S8192x64 .bf16) (harg1 : arg1.IsWhole) (arg2 : Memref sig .tc .vmem S8192x64 .f32) (harg2 : arg2.IsWhole)
    (arg3 : Memref sig .tc .vmem S8192x64 .bf16) (harg3 : arg3.IsWhole) (arg4 : Memref sig .tc .vmem S64x64 .bf16) (harg4 : arg4.IsWhole)
    (arg5 : Memref sig .tc .vmem S64x64 .bf16) (harg5 : arg5.IsWhole) (arg6 : Memref sig .tc .vmem S64x64 .bf16) (harg6 : arg6.IsWhole)
    (arg7 : Memref sig .tc .vmem S64 .f32) (harg7 : arg7.IsWhole) (arg8 : Memref sig .tc .vmem S8192x64 .f32) (harg8 : arg8.IsWhole)
    (xs : Vec F S8192x64 .bf16) (xe : Vec F S8192x64 .f32) (xd : Vec F S8192x64 .bf16) (ws we wd : Vec F S64x64 .bf16) (b : Vec F S64 .f32)
    (K : PUnit → sProp 𝕄) :
    iprop(owns (c : Thread nD τ) arg1 fullShare xs ∗ owns (c : Thread nD τ) arg2 fullShare xe ∗ owns (c : Thread nD τ) arg3 fullShare xd
        ∗ owns (c : Thread nD τ) arg4 fullShare ws ∗ owns (c : Thread nD τ) arg5 fullShare we ∗ owns (c : Thread nD τ) arg6 fullShare wd
        ∗ owns (c : Thread nD τ) arg7 fullShare b ∗ (∃ d, owns (c : Thread nD τ) arg8 fullShare d)
        ∗ (iprop(owns (c : Thread nD τ) arg1 fullShare xs ∗ owns (c : Thread nD τ) arg2 fullShare xe ∗ owns (c : Thread nD τ) arg3 fullShare xd
            ∗ owns (c : Thread nD τ) arg4 fullShare ws ∗ owns (c : Thread nD τ) arg5 fullShare we ∗ owns (c : Thread nD τ) arg6 fullShare wd
            ∗ owns (c : Thread nD τ) arg7 fullShare b ∗ owns (c : Thread nD τ) arg8 fullShare (outBuf xs xe xd ws we wd b)) -∗ K ⟨⟩))
      ⊢ wp frame (wpE (defs₀ (F := F)) Variants.none c none) E
          (cc0__edge_apply_kernel i arg1 harg1 arg2 harg2 arg3 harg3 arg4 harg4 arg5 harg5 arg6 harg6 arg7 harg7 arg8 harg8) K := by
  simp only [cc0__edge_apply_kernel_eq_skeleton]; unfold cc0__edge_apply_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-- The whole-buffer store leaves the body's arithmetic on the whole-buffer loads: the one store is the buffer, each
    load the buffer it reads. -/
theorem outBuf_eq (xs : Vec F S8192x64 .bf16) (xe : Vec F S8192x64 .f32) (xd : Vec F S8192x64 .bf16)
    (ws we wd : Vec F S64x64 .bf16) (b : Vec F S64 .f32) :
    outBuf xs xe xd ws we wd b = k0_pay1 xs xd xe ws we wd b := by
  have hz2 : (![0, 0] : Fin 2 → Nat) = fun _ => 0 := funext fun a => by fin_cases a <;> rfl
  have hz1 : (![0] : Fin 1 → Nat) = fun _ => 0 := funext fun a => by fin_cases a; rfl
  unfold outBuf
  rw [View.canon_unit_zero (S := S8192x64) hz2]
  simp only [View.ld_unit_zero (S := S8192x64) hz2, View.ld_unit_zero (S := S64x64) hz2, View.ld_unit_zero (S := S64) hz1]

variable (m : (ℓ : Loc nD τ sig) → Buf (Elt F) ℓ) (ρ : Dev nD → PrngReg)

/-! ## The proof data -/

/-- A staging buffer of a window whose last block overhangs the array, filled out: the block's rows inside the array,
    and on the rows past the array's end (the last point's only) a word nothing that is written back depends on. -/
def srcBuf (c : Dev nD) (t : Fin cfg0.N) : Vec F S8192x64 .bf16 :=
  win0_0.fill (grid0.coords t) (fun _ => Scalar.ofBits .bf16 0#16) (iblk m c 0 t)
def edgeBuf (c : Dev nD) (t : Fin cfg0.N) : Vec F S8192x64 .f32 :=
  win0_1.fill (grid0.coords t) (fun _ => Scalar.ofBits .f32 0#32) (iblk m c 1 t)
def dstBuf (c : Dev nD) (t : Fin cfg0.N) : Vec F S8192x64 .bf16 :=
  win0_2.fill (grid0.coords t) (fun _ => Scalar.ofBits .bf16 0#16) (iblk m c 2 t)

/-- The proof data of the one pipeline on core `c`: the arrays as the launch finds them; after the body at point `t`
    the three row windows' buffers at their blocks filled out, the weights' and the bias's at their blocks, the result's
    at the body's arithmetic of those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => srcBuf m c t
    | ⟨1, _⟩ => edgeBuf m c t
    | ⟨2, _⟩ => dstBuf m c t
    | ⟨3, _⟩ => iblk m c 3 t
    | ⟨4, _⟩ => iblk m c 4 t
    | ⟨5, _⟩ => iblk m c 5 t
    | ⟨6, _⟩ => iblk m c 6 t
    | ⟨7, _⟩ => outBuf (srcBuf m c t) (edgeBuf m c t) (dstBuf m c t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = srcBuf m c t := by dsimp only [dats]
theorem after_1 (c : Dev nD) (t : Fin cfg0.N) : (dats m 0 c).after 1 t = edgeBuf m c t := by dsimp only [dats]
theorem after_2 (c : Dev nD) (t : Fin cfg0.N) : (dats m 0 c).after 2 t = dstBuf m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = outBuf (srcBuf m c t) (edgeBuf m c t) (dstBuf m c t) (iblk m c 3 t) (iblk m c 4 t) (iblk m c 5 t) (iblk m c 6 t) := by
  dsimp only [dats]

/-- The three row windows are fetched at every point: the body finds the block on the rows inside the array and, past
    the array's end, whatever the overwrite before the fetch left (`d`). -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
/-- The weights' and the bias's one buffer holds the block at every point, fetched there or not. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

/-- The rows of the result's buffer inside the array do not depend on what the three row buffers hold past the array's
    end: the hypothesis under which the proof data names what is written back. (It holds wherever row `p` of the body's
    arithmetic reads only row `p` of the three row operands.) -/
def RowLocal : Prop :=
  ∀ (c : Dev nD) (t : Fin cfg0.N) (d0 : Vec F S8192x64 .bf16) (d1 : Vec F S8192x64 .f32) (d2 : Vec F S8192x64 .bf16),
    win0_7.cut (grid0.coords t)
        (outBuf (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t))
      = win0_7.cut (grid0.coords t)
        (outBuf (srcBuf m c t) (edgeBuf m c t) (dstBuf m c t) (iblk m c 3 t) (iblk m c 4 t) (iblk m c 5 t) (iblk m c 6 t))

/-- The library's obligation at every point, each window's buffer described on the part its transfers move: the three row
    windows hold their blocks there before and after; the weights and the bias hold theirs; the result's rows inside the
    array are the arithmetic of the blocks (by `RowLocal`, whatever lay past the array's end). -/
theorem body_obligation (hloc : RowLocal m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5,
    before_6 m c t d6]
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have h0 : win0_0.cut (grid0.coords t) (srcBuf m c t) = iblk m c 0 t := win0_0.cut_fill _ _ _
  have h1 : win0_1.cut (grid0.coords t) (edgeBuf m c t) = iblk m c 1 t := win0_1.cut_fill _ _ _
  have h2 : win0_2.cut (grid0.coords t) (dstBuf m c t) = iblk m c 2 t := win0_2.cut_fill _ _ _
  isplitl [H0]
  · iexists d0
    rw [after_0]
    change _ ⊢ owns (c : Thread nD τ) (st0_0 t) fullShare (win0_0.fill (grid0.coords t) d0 (win0_0.cut (grid0.coords t) (srcBuf m c t)))
    rw [h0]; try iexact H0
  isplitl [H1]
  · iexists d1
    rw [after_1]
    change _ ⊢ owns (c : Thread nD τ) (st0_1 t) fullShare (win0_1.fill (grid0.coords t) d1 (win0_1.cut (grid0.coords t) (edgeBuf m c t)))
    rw [h1]; try iexact H1
  isplitl [H2]
  · iexists d2
    rw [after_2]
    change _ ⊢ owns (c : Thread nD τ) (st0_2 t) fullShare (win0_2.fill (grid0.coords t) d2 (win0_2.cut (grid0.coords t) (dstBuf m c t)))
    rw [h2]; try iexact H2
  isplitl [H3]; · rw [after_3]; iexact H3
  isplitl [H4]; · rw [after_4]; iexact H4
  isplitl [H5]; · rw [after_5]; iexact H5
  isplitl [H6]; · rw [after_6]; iexact H6
  iexists (outBuf (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t))
  rw [after_7]
  change _ ⊢ owns (c : Thread nD τ) (st0_7 t) fullShare (win0_7.fill (grid0.coords t) _ (win0_7.cut (grid0.coords t) _))
  rw [win0_7.fill_congr_cut (grid0.coords t) (hloc c t d0 d1 d2)]; try iexact H7

end Cert.KernelIdeal.Body

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Spec.lean ====
/-
  The edge update of a message-passing layer, as a function of whole arrays over the extended reals.

  For edge e and output feature q the layer computes
      relu( x_src(e) · W[0:64, q] + f(e) · W[64:128, q] + x_dst(e) · W[128:192, q] + b[q] ),
  where x_src(e) and x_dst(e) are the feature rows of the edge's two end nodes and f(e) is the edge's own feature row.
  Concatenating the three rows and contracting with all 192 rows of W is the same number: a sum over 192 indices is the
  sum of its three consecutive stretches of 64, which needs only that addition is commutative and associative, so it
  holds at the infinities too.
-/
import Idealize.ShloMosaic.PureOps.Ideal.Laws
import Idealize.ShloMosaic.Lib.ValueIdx

noncomputable section

open scoped BigOperators

namespace EdgeMlp

open Idealize.ShloMosaic Idealize.ShloMosaic.ValueIdx

/-- Row `k` of the `j`-th stretch of 64 rows of the 192-row weight matrix. -/
def wrow (j : Fin 3) (k : Fin 64) : Fin 192 := ⟨64 * j.val + k.val, by have := j.isLt; have := k.isLt; omega⟩

/-- One output entry from the three 64-long rows it reads, the three weight columns they meet, the bias and the
    threshold: the three dot products added left to right, then the bias, then the maximum with the threshold. -/
def entry (xs xe xd ws we wd : Fin 64 → EReal) (b z : EReal) : EReal :=
  max ((((∑ k : Fin 64, xs k * ws k) + ∑ k : Fin 64, xe k * we k) + ∑ k : Fin 64, xd k * wd k) + b) z

/-- The threshold of the rectifier: the f32 zero word read as an extended real. -/
abbrev zero : EReal := Ideal.ofBits .f32 0x00000000#32

/-- The layer over whole arrays: `gs` and `gd` the end nodes' rows already gathered per edge, `ef` the edge features,
    `W` the 192 × 64 weights, `b` the bias. -/
def G (gs ef gd : (⟨2, ![1000000, 64]⟩ : Shape).Idx → EReal) (W : (⟨2, ![192, 64]⟩ : Shape).Idx → EReal)
    (b : (⟨1, ![64]⟩ : Shape).Idx → EReal) : (⟨2, ![1000000, 64]⟩ : Shape).Idx → EReal := fun i =>
  entry (fun k => gs (ix2 (i 0) k)) (fun k => ef (ix2 (i 0) k)) (fun k => gd (ix2 (i 0) k))
    (fun k => W (ix2 (wrow 0 k) (i 1))) (fun k => W (ix2 (wrow 1 k) (i 1))) (fun k => W (ix2 (wrow 2 k) (i 1)))
    (b (ix1 (i 1))) zero

/-- A sum over 192 indices is the sum of its three stretches of 64, in order. -/
theorem sum_three_stretches (f : Fin 192 → EReal) :
    ∑ k : Fin 192, f k = ((∑ k : Fin 64, f (wrow 0 k)) + ∑ k : Fin 64, f (wrow 1 k)) + ∑ k : Fin 64, f (wrow 2 k) := by
  have h := Fin.sum_univ_add (a := 64 + 64) (b := 64) (fun k : Fin (64 + 64 + 64) => f k)
  have h2 := Fin.sum_univ_add (a := 64) (b := 64) (fun k : Fin (64 + 64) => f (Fin.castAdd 64 k))
  rw [h, h2]
  refine congrArg₂ (· + ·) (congrArg₂ (· + ·) ?_ ?_) ?_
  · exact Finset.sum_congr rfl fun k _ => congrArg f (Fin.ext (by simp only [wrow, Fin.coe_castAdd]; omega))
  · exact Finset.sum_congr rfl fun k _ => congrArg f (Fin.ext (by simp only [wrow, Fin.coe_castAdd, Fin.coe_natAdd]; omega))
  · exact Finset.sum_congr rfl fun k _ => congrArg f (Fin.ext (by simp only [wrow, Fin.coe_natAdd]; omega))

end EdgeMlp

end
-- ==== Proof.PayloadAt.lean ====
/-
  The value the kernel body stores, read at one index, over the extended reals.

  The body multiplies the source rows, the edge rows and the destination rows each by its own 64 × 64 weight block into a
  zero accumulator, adds the three products left to right, adds the bias row (a 64-vector read as one row and repeated
  over all 8192 rows) and takes the maximum with zero. At row p and column q that is one entry of the edge update: the
  three dot products of row p with column q of the three weight blocks, plus the bias at q, cut below at zero. A change of
  float format and a cast between equal shapes do nothing at the extended reals.
-/
import proofs.«411550_j31447750542169_3_alg».proof.Proof.Gen.KernelIdeal.Skeleton
import proofs.«411550_j31447750542169_3_alg».proof.Proof.LibMatmulAt
import proofs.«411550_j31447750542169_3_alg».proof.Proof.Spec
import Idealize.ShloMosaic.Lib.Pipeline.Value
import Idealize.ShloMosaic.Lib.ValueLayout

noncomputable section

open scoped BigOperators

namespace Cert.KernelIdeal.PayloadAt

open Cert.KernelIdeal Cert.KernelIdeal.Gen Idealize.ShloMosaic Idealize.ShloMosaic.ValueIdx

/-- The body's contraction record is the plain one: rows × contraction times contraction × columns. -/
theorem dot_eq_plain : dot_S8192x64_S64x64_S8192x64_1_0_0_1_n_n = DotDims.plain 8192 64 64 := rfl

/-- One product of the body into the zero accumulator, at row `p` and column `q`: the dot product of row `p` of the left
    operand with column `q` of the right one. -/
theorem mm_apply (l : FVec Ideal S8192x64 .bf16) (r : FVec Ideal S64x64 .bf16) (p : Fin 8192) (q : Fin 64) :
    matmul dot_S8192x64_S64x64_S8192x64_1_0_0_1_n_n none l r (constant (F := Ideal) S8192x64 .f32 0x00000000#32) (ix2 p q)
      = ∑ k : Fin 64, l (ix2 p k) * r (ix2 k q) := by
  rw [dot_eq_plain]
  exact MatmulAt.matmul_plain_apply none l r p q

/-- The bias vector read as one row and repeated over the rows, at `(p, q)`: the bias at `q`. -/
theorem bias_apply (b : FVec Ideal S64 .f32) (p : Fin 8192) (q : Fin 64) :
    broadcastTo S8192x64 (shapeCast S1x64 b shapeCasts_S64_S1x64) broadcasts_S1x64_S8192x64 (ix2 p q) = b (ix1 q) :=
  (broadcastTo_1b_ab_apply _ _ p q).trans (shapeCast_a_1a_apply b _ 0 q)

/-- The stored value at row `p` and column `q` is the edge update's entry there: source rows against the first weight
    block, edge rows against the second, destination rows against the third, summed left to right, plus the bias at `q`,
    cut below at zero. -/
theorem pay_apply (v0 v2 : Vec Ideal S8192x64 .bf16) (v4 : Vec Ideal S8192x64 .f32) (v6 v9 v13 : Vec Ideal S64x64 .bf16) (v17 : Vec Ideal S64 .f32) (p : Fin 8192) (q : Fin 64) :
    k0_pay1 (F := Ideal) v0 v2 v4 v6 v9 v13 v17 (ix2 p q)
      = EdgeMlp.entry (fun k => v0 (ix2 p k)) (fun k => v4 (ix2 p k)) (fun k => v2 (ix2 p k)) (fun k => v6 (ix2 k q)) (fun k => v9 (ix2 k q)) (fun k => v13 (ix2 k q)) (v17 (ix1 q)) EdgeMlp.zero := by
  unfold k0_pay1 EdgeMlp.entry
  simp only [maximumf_apply, addf_apply, broadcast_apply, shapeCast_self, mm_apply, bias_apply, truncf_apply]
  rfl

/-- row p of the result reads only row p of the three 8192-row operands -/
theorem pay_row_local (v0 v0' v2 v2' : Vec Ideal S8192x64 .bf16) (v4 v4' : Vec Ideal S8192x64 .f32) (v6 v9 v13 : Vec Ideal S64x64 .bf16) (v17 : Vec Ideal S64 .f32) (p : Fin 8192) (q : Fin 64)
    (h0 : ∀ k : Fin 64, v0 (ix2 p k) = v0' (ix2 p k)) (h2 : ∀ k : Fin 64, v2 (ix2 p k) = v2' (ix2 p k)) (h4 : ∀ k : Fin 64, v4 (ix2 p k) = v4' (ix2 p k)) :
    k0_pay1 (F := Ideal) v0 v2 v4 v6 v9 v13 v17 (ix2 p q) = k0_pay1 (F := Ideal) v0' v2' v4' v6 v9 v13 v17 (ix2 p q) := by
  rw [pay_apply, pay_apply]
  simp only [h0, h2, h4]

end Cert.KernelIdeal.PayloadAt

end
-- ==== Proof.KernelValue.lean ====
/-
  The idealized kernel's result array after the run, as one function of the arrays the launch finds.

  The grid has 123 points over 1,000,000 rows in blocks of 8192 rows and all 64 columns: point t reads rows
  8192 t … 8192 t + 8191 of the source rows, the edge rows and the destination rows, the whole of the three 64 × 64 weight
  blocks and of the bias, and writes back the same rows of the result. 122 × 8192 = 999,424, so the last block holds
  576 rows of the array; past them its buffers hold words nothing names.

  Two facts. (1) Row p of what the body stores reads only row p of the three row operands; a row of a buffer inside
  the array is the block's row whatever the buffer was filled over; so the rows written back do not depend on what lay
  past the array's end. (2) Entry (p, q) stored at point t, p inside the array, is entry (8192 t + p, q) of the layer
  over the whole arrays: the three dot products of that row of the three row arrays with column q of the three weight
  blocks, plus the bias at q, cut below at zero. Every row r of the array lies in the block of point r / 8192, and every
  point writes its block back, so after the 123 write-backs the result array is that layer.
-/
import proofs.«411550_j31447750542169_3_alg».proof.Proof.BodyI
import proofs.«411550_j31447750542169_3_alg».proof.Proof.PayloadAt
import proofs.«411550_j31447750542169_3_alg».proof.Proof.Spec
import Idealize.ShloMosaic.Lib.Pipeline.Value

set_option maxRecDepth 16384

noncomputable section

namespace Cert.KernelIdeal.KernelValue

open Cert.KernelIdeal Cert.KernelIdeal.Gen Cert.KernelIdeal.Body Idealize.ShloMosaic Idealize.ShloMosaic.TcCoe Idealize.SL.Sem Idealize.ShloMosaic.ValueIdx
open Idealize.ShloMosaic.Pipeline (Dat Window)

variable (m : (ℓ : Loc nD τ sig) → Buf (Elt Ideal) ℓ)

/-! ## The layer over whole arrays -/

/-- the layer over whole arrays, the three 64 × 64 weight blocks given separately -/
def K (gs ef gd : S1000000x64.Idx → EReal) (ws we wd : S64x64.Idx → EReal) (b : S64.Idx → EReal) : S1000000x64.Idx → EReal := fun i =>
  EdgeMlp.entry (fun k => gs (ix2 (i 0) k)) (fun k => ef (ix2 (i 0) k)) (fun k => gd (ix2 (i 0) k)) (fun k => ws (ix2 k (i 1))) (fun k => we (ix2 k (i 1))) (fun k => wd (ix2 k (i 1))) (b (ix1 (i 1))) EdgeMlp.zero

/-- an entry depends on its three rows, its three weight columns and its bias only through their values -/
theorem entry_congr {xs xs' xe xe' xd xd' ws ws' we we' wd wd' : Fin 64 → EReal} {b b' z : EReal}
    (h0 : ∀ k, xs k = xs' k) (h1 : ∀ k, xe k = xe' k) (h2 : ∀ k, xd k = xd' k)
    (h3 : ∀ k, ws k = ws' k) (h4 : ∀ k, we k = we' k) (h5 : ∀ k, wd k = wd' k) (h6 : b = b') :
    EdgeMlp.entry xs xe xd ws we wd b z = EdgeMlp.entry xs' xe' xd' ws' we' wd' b' z := by
  obtain rfl : xs = xs' := funext h0
  obtain rfl : xe = xe' := funext h1
  obtain rfl : xd = xd' := funext h2
  obtain rfl : ws = ws' := funext h3
  obtain rfl : we = we' := funext h4
  obtain rfl : wd = wd' := funext h5
  subst h6
  rfl

/-! ## The grid: 123 points, each the block of 8192 rows it numbers, the last cut to 576 -/

/-- Decided over the 123 points: the four row windows send point t to block (t, 0), the weights' and the bias's windows to
    block 0; a row window's block at point t has min 8192 (1000000 − 8192 t) rows inside the array and all 64 columns. -/
theorem grid_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.xsize (grid0.coords t) (0 : Fin 2) = min 8192 (1000000 - 8192 * t.val)
    ∧ win0_7.xsize (grid0.coords t) (1 : Fin 2) = 64
    ∧ win0_0.xsize (grid0.coords t) (0 : Fin 2) = min 8192 (1000000 - 8192 * t.val)
    ∧ win0_0.xsize (grid0.coords t) (1 : Fin 2) = 64
    ∧ win0_1.xsize (grid0.coords t) (0 : Fin 2) = min 8192 (1000000 - 8192 * t.val)
    ∧ win0_1.xsize (grid0.coords t) (1 : Fin 2) = 64
    ∧ win0_2.xsize (grid0.coords t) (0 : Fin 2) = min 8192 (1000000 - 8192 * t.val)
    ∧ win0_2.xsize (grid0.coords t) (1 : Fin 2) = 64 :=
  (by decide +kernel : ∀ t : Fin grid0.N, _)

/-- A point's number is below 123. -/
theorem point_lt (t : Fin cfg0.N) : t.val < 123 := by
  have h := t.isLt
  have hN : cfg0.N = 123 := N_0
  omega

/-! ## A filled block at a row inside the array -/

/-- At an index the transfer moves, a block filled out past the array's end is the block: what it was filled over is not read. -/
theorem fill_moved {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- Filled over different contents, a block agrees at every index the transfer moves. -/
theorem fill_congr_moved {G : Pipeline.Grid} (w : Window sig G) {α : Type} (i : G.Coords) (d d' : w.block.Idx → α)
    (g : (w.xblock i).Idx → α) (j : w.block.Idx) (h : ∀ a, (j a).val < w.xsize i a) :
    w.fill i d g j = w.fill i d' g j :=
  (fill_moved w i d g j h).trans (fill_moved w i d' g j h).symm

/-- Row p of the source rows' block at point t is inside the array when p < min 8192 (1000000 − 8192 t); every column is. -/
theorem moved_src (t : Fin cfg0.N) (p : Fin 8192) (k : Fin 64) (hp : p.val < min 8192 (1000000 - 8192 * t.val)) :
    ∀ a : Fin 2, ((ix2 p k : S8192x64.Idx) a).val < win0_0.xsize (grid0.coords t) a := fun a => by
  obtain ⟨-, -, -, -, -, -, -, -, -, -, -, -, -, -, -, -, -, x0, x1, -⟩ := grid_facts t
  match a with
  | ⟨0, _⟩ => show p.val < win0_0.xsize (grid0.coords t) (0 : Fin 2); rw [x0]; exact hp
  | ⟨1, _⟩ => show k.val < win0_0.xsize (grid0.coords t) (1 : Fin 2); rw [x1]; exact k.isLt

/-- The same of the edge rows' block. -/
theorem moved_edge (t : Fin cfg0.N) (p : Fin 8192) (k : Fin 64) (hp : p.val < min 8192 (1000000 - 8192 * t.val)) :
    ∀ a : Fin 2, ((ix2 p k : S8192x64.Idx) a).val < win0_1.xsize (grid0.coords t) a := fun a => by
  obtain ⟨-, -, -, -, -, -, -, -, -, -, -, -, -, -, -, -, -, -, -, x0, x1, -⟩ := grid_facts t
  match a with
  | ⟨0, _⟩ => show p.val < win0_1.xsize (grid0.coords t) (0 : Fin 2); rw [x0]; exact hp
  | ⟨1, _⟩ => show k.val < win0_1.xsize (grid0.coords t) (1 : Fin 2); rw [x1]; exact k.isLt

/-- The same of the destination rows' block. -/
theorem moved_dst (t : Fin cfg0.N) (p : Fin 8192) (k : Fin 64) (hp : p.val < min 8192 (1000000 - 8192 * t.val)) :
    ∀ a : Fin 2, ((ix2 p k : S8192x64.Idx) a).val < win0_2.xsize (grid0.coords t) a := fun a => by
  obtain ⟨-, -, -, -, -, -, -, -, -, -, -, -, -, -, -, -, -, -, -, -, -, x0, x1⟩ := grid_facts t
  match a with
  | ⟨0, _⟩ => show p.val < win0_2.xsize (grid0.coords t) (0 : Fin 2); rw [x0]; exact hp
  | ⟨1, _⟩ => show k.val < win0_2.xsize (grid0.coords t) (1 : Fin 2); rw [x1]; exact k.isLt

/-- Row p of the source rows' buffer at point t, p inside the array: row 8192 t + p of the gathered source rows. -/
theorem srcBuf_apply (c : Dev nD) (t : Fin cfg0.N) (p : Fin 8192) (k : Fin 64) (r : Fin 1000000)
    (hp : p.val < min 8192 (1000000 - 8192 * t.val)) (hr : r.val = 8192 * t.val + p.val) :
    srcBuf (F := Ideal) m c t (ix2 p k) = V m c main_v9 (ix2 r k) := by
  obtain ⟨-, -, e0, e1, -⟩ := grid_facts t
  unfold srcBuf
  refine (fill_moved win0_0 (grid0.coords t) _ _ (ix2 p k) (moved_src t p k hp)).trans ?_
  unfold iblk
  rw [View.read_apply]
  show V m c main_v9 (((cfg0.win 0).blk t).view.emb _) = V m c main_v9 (ix2 r k)
  refine congrArg _ ?_
  funext a; apply Fin.ext
  match a with
  | ⟨0, _⟩ => show win0_0.index t (0 : Fin 2) * 8192 + 1 * p.val = r.val; omega
  | ⟨1, _⟩ => show win0_0.index t (1 : Fin 2) * 64 + 1 * k.val = k.val; omega

/-- Row p of the edge rows' buffer at point t, p inside the array: row 8192 t + p of the edge features. -/
theorem edgeBuf_apply (c : Dev nD) (t : Fin cfg0.N) (p : Fin 8192) (k : Fin 64) (r : Fin 1000000)
    (hp : p.val < min 8192 (1000000 - 8192 * t.val)) (hr : r.val = 8192 * t.val + p.val) :
    edgeBuf (F := Ideal) m c t (ix2 p k) = V m c main_arg1 (ix2 r k) := by
  obtain ⟨-, -, -, -, e0, e1, -⟩ := grid_facts t
  unfold edgeBuf
  refine (fill_moved win0_1 (grid0.coords t) _ _ (ix2 p k) (moved_edge t p k hp)).trans ?_
  unfold iblk
  rw [View.read_apply]
  show V m c main_arg1 (((cfg0.win 1).blk t).view.emb _) = V m c main_arg1 (ix2 r k)
  refine congrArg _ ?_
  funext a; apply Fin.ext
  match a with
  | ⟨0, _⟩ => show win0_1.index t (0 : Fin 2) * 8192 + 1 * p.val = r.val; omega
  | ⟨1, _⟩ => show win0_1.index t (1 : Fin 2) * 64 + 1 * k.val = k.val; omega

/-- Row p of the destination rows' buffer at point t, p inside the array: row 8192 t + p of the gathered destination rows. -/
theorem dstBuf_apply (c : Dev nD) (t : Fin cfg0.N) (p : Fin 8192) (k : Fin 64) (r : Fin 1000000)
    (hp : p.val < min 8192 (1000000 - 8192 * t.val)) (hr : r.val = 8192 * t.val + p.val) :
    dstBuf (F := Ideal) m c t (ix2 p k) = V m c main_v16 (ix2 r k) := by
  obtain ⟨-, -, -, -, -, -, e0, e1, -⟩ := grid_facts t
  unfold dstBuf
  refine (fill_moved win0_2 (grid0.coords t) _ _ (ix2 p k) (moved_dst t p k hp)).trans ?_
  unfold iblk
  rw [View.read_apply]
  show V m c main_v16 (((cfg0.win 2).blk t).view.emb _) = V m c main_v16 (ix2 r k)
  refine congrArg _ ?_
  funext a; apply Fin.ext
  match a with
  | ⟨0, _⟩ => show win0_2.index t (0 : Fin 2) * 8192 + 1 * p.val = r.val; omega
  | ⟨1, _⟩ => show win0_2.index t (1 : Fin 2) * 64 + 1 * k.val = k.val; omega

/-! ## The weights' and the bias's blocks are their whole arrays -/

/-- The first weight block at any point is the whole 64 × 64 array. -/
theorem wsBlk_apply (c : Dev nD) (t : Fin cfg0.N) (k q : Fin 64) :
    iblk (F := Ideal) m c 3 t (ix2 k q) = V m c main_v18 (ix2 k q) := by
  obtain ⟨-, -, -, -, -, -, -, -, e0, e1, -⟩ := grid_facts t
  unfold iblk
  rw [View.read_apply]
  show V m c main_v18 (((cfg0.win 3).blk t).view.emb _) = V m c main_v18 (ix2 k q)
  refine congrArg _ ?_
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The second weight block at any point is the whole 64 × 64 array. -/
theorem weBlk_apply (c : Dev nD) (t : Fin cfg0.N) (k q : Fin 64) :
    iblk (F := Ideal) m c 4 t (ix2 k q) = V m c main_v20 (ix2 k q) := by
  obtain ⟨-, -, -, -, -, -, -, -, -, -, e0, e1, -⟩ := grid_facts t
  unfold iblk
  rw [View.read_apply]
  show V m c main_v20 (((cfg0.win 4).blk t).view.emb _) = V m c main_v20 (ix2 k q)
  refine congrArg _ ?_
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- The third weight block at any point is the whole 64 × 64 array. -/
theorem wdBlk_apply (c : Dev nD) (t : Fin cfg0.N) (k q : Fin 64) :
    iblk (F := Ideal) m c 5 t (ix2 k q) = V m c main_v22 (ix2 k q) := by
  obtain ⟨-, -, -, -, -, -, -, -, -, -, -, -, e0, e1, -⟩ := grid_facts t
  unfold iblk
  rw [View.read_apply]
  show V m c main_v22 (((cfg0.win 5).blk t).view.emb _) = V m c main_v22 (ix2 k q)
  refine congrArg _ ?_
  funext a; apply Fin.ext
  match a with
  | ⟨0, _⟩ => show win0_5.index t (0 : Fin 2) * 64 + 1 * k.val = k.val; omega
  | ⟨1, _⟩ => show win0_5.index t (1 : Fin 2) * 64 + 1 * q.val = q.val; omega

/-- The bias block at any point is the whole 64-vector. -/
theorem biasBlk_apply (c : Dev nD) (t : Fin cfg0.N) (q : Fin 64) :
    iblk (F := Ideal) m c 6 t (ix1 q) = V m c main_arg5 (ix1 q) := by
  obtain ⟨-, -, -, -, -, -, -, -, -, -, -, -, -, -, e0, -⟩ := grid_facts t
  unfold iblk
  rw [View.read_apply]
  show V m c main_arg5 (((cfg0.win 6).blk t).view.emb _) = V m c main_arg5 (ix1 q)
  refine congrArg _ ?_
  funext a; apply Fin.ext
  match a with
  | ⟨0, _⟩ => show win0_6.index t (0 : Fin 1) * 64 + 1 * q.val = q.val; omega

/-! ## What the body stores at a row inside the array -/

/-- Entry (p, q) of the body's arithmetic on the buffers at point t, row p inside the array: entry (8192 t + p, q) of the
    layer over the whole arrays. -/
theorem pay_blocks (c : Dev nD) (t : Fin cfg0.N) (p : Fin 8192) (q : Fin 64) (r : Fin 1000000)
    (hp : p.val < min 8192 (1000000 - 8192 * t.val)) (hr : r.val = 8192 * t.val + p.val) :
    k0_pay1 (F := Ideal) (srcBuf m c t) (dstBuf m c t) (edgeBuf m c t) (iblk m c 3 t) (iblk m c 4 t) (iblk m c 5 t) (iblk m c 6 t) (ix2 p q)
      = K (V m c main_v9) (V m c main_arg1) (V m c main_v16) (V m c main_v18) (V m c main_v20) (V m c main_v22) (V m c main_arg5) (ix2 r q) := by
  refine (PayloadAt.pay_apply (srcBuf m c t) (dstBuf m c t) (edgeBuf m c t) (iblk m c 3 t) (iblk m c 4 t) (iblk m c 5 t) (iblk m c 6 t) p q).trans ?_
  unfold K
  exact entry_congr (fun k => srcBuf_apply m c t p k r hp hr) (fun k => edgeBuf_apply m c t p k r hp hr)
    (fun k => dstBuf_apply m c t p k r hp hr) (fun k => wsBlk_apply m c t k q) (fun k => weBlk_apply m c t k q)
    (fun k => wdBlk_apply m c t k q) (biasBlk_apply m c t q)

/-! ## The two results -/

/-- rows of the result inside the array do not depend on the row buffers' contents past the array's end -/
theorem rowLocal : Body.RowLocal (F := Ideal) m := by
  intro c t d0 d1 d2
  funext j
  obtain ⟨-, -, -, -, -, -, -, -, -, -, -, -, -, -, -, x0, x1, -⟩ := grid_facts t
  have hj0 : (j (0 : Fin 2)).val < win0_7.xsize (grid0.coords t) (0 : Fin 2) := (j (0 : Fin 2)).isLt
  have hj1 : (j (1 : Fin 2)).val < win0_7.xsize (grid0.coords t) (1 : Fin 2) := (j (1 : Fin 2)).isLt
  rw [x0] at hj0; rw [x1] at hj1
  have hp : (j (0 : Fin 2)).val < 8192 := by omega
  -- the buffer's index under j, by its two coordinates
  have hy : (win0_7.xinj (grid0.coords t) j : S8192x64.Idx)
      = ix2 (⟨(j (0 : Fin 2)).val, hp⟩ : Fin 8192) (⟨(j (1 : Fin 2)).val, hj1⟩ : Fin 64) := by
    funext a
    match a with
    | ⟨0, _⟩ => rfl
    | ⟨1, _⟩ => rfl
  show outBuf _ _ _ _ _ _ _ (win0_7.xinj (grid0.coords t) j) = outBuf _ _ _ _ _ _ _ (win0_7.xinj (grid0.coords t) j)
  rw [outBuf_eq, outBuf_eq, hy]
  refine PayloadAt.pay_row_local _ _ _ _ _ _ _ _ _ _ _ _ (fun k => ?_) (fun k => ?_) (fun k => ?_)
  · unfold srcBuf
    exact fill_congr_moved win0_0 (grid0.coords t) _ _ _ _ (moved_src t _ k hj0)
  · unfold dstBuf
    exact fill_congr_moved win0_2 (grid0.coords t) _ _ _ _ (moved_dst t _ k hj0)
  · unfold edgeBuf
    exact fill_congr_moved win0_1 (grid0.coords t) _ _ _ _ (moved_edge t _ k hj0)

/-- What point t writes back is its block of the layer over the whole arrays. -/
theorem flushed_eq (c : Dev nD) (t : Fin cfg0.N) :
    (Body.dats (F := Ideal) m 0 c).flushed 7 t
      = ((cfg0.win 7).blk t).view.read (Elt Ideal)
          (K (V m c main_v9) (V m c main_arg1) (V m c main_v16) (V m c main_v18) (V m c main_v20) (V m c main_v22) (V m c main_arg5)) := by
  show (cfg0.win 7).cut (grid0.coords t) ((Body.dats (F := Ideal) m 0 c).after 7 t) = _
  rw [after_7]
  funext j
  obtain ⟨i0, i1, -, -, -, -, -, -, -, -, -, -, -, -, -, x0, x1, -⟩ := grid_facts t
  have ht := point_lt t
  have hj0 : (j (0 : Fin 2)).val < win0_7.xsize (grid0.coords t) (0 : Fin 2) := (j (0 : Fin 2)).isLt
  have hj1 : (j (1 : Fin 2)).val < win0_7.xsize (grid0.coords t) (1 : Fin 2) := (j (1 : Fin 2)).isLt
  rw [x0] at hj0; rw [x1] at hj1
  have hp : (j (0 : Fin 2)).val < 8192 := by omega
  have hr : 8192 * t.val + (j (0 : Fin 2)).val < 1000000 := by omega
  -- the buffer's index under j, and the array's, each by its two coordinates
  have hy : (win0_7.xinj (grid0.coords t) j : S8192x64.Idx)
      = ix2 (⟨(j (0 : Fin 2)).val, hp⟩ : Fin 8192) (⟨(j (1 : Fin 2)).val, hj1⟩ : Fin 64) := by
    funext a
    match a with
    | ⟨0, _⟩ => rfl
    | ⟨1, _⟩ => rfl
  have he : (((cfg0.win 7).blk t).view.emb j : S1000000x64.Idx)
      = ix2 (⟨8192 * t.val + (j (0 : Fin 2)).val, hr⟩ : Fin 1000000) (⟨(j (1 : Fin 2)).val, hj1⟩ : Fin 64) := by
    funext a; apply Fin.ext
    match a with
    | ⟨0, _⟩ => show win0_7.index t (0 : Fin 2) * 8192 + 1 * (j (0 : Fin 2)).val = 8192 * t.val + (j (0 : Fin 2)).val; omega
    | ⟨1, _⟩ => show win0_7.index t (1 : Fin 2) * 64 + 1 * (j (1 : Fin 2)).val = (j (1 : Fin 2)).val; omega
  rw [View.read_apply]
  show outBuf (F := Ideal) _ _ _ _ _ _ _ (win0_7.xinj (grid0.coords t) j) = K _ _ _ _ _ _ _ (((cfg0.win 7).blk t).view.emb j)
  rw [outBuf_eq, hy, he]
  exact pay_blocks m c t _ _ _ hj0 rfl

/-- An index of the result array is in point t's block iff each coordinate is among the block's inside the array. -/
theorem mem_blk (t : Fin cfg0.N) (i : S1000000x64.Idx) :
    i ∈ ((cfg0.win 7).blk t).view.set
      ↔ ∀ a : Fin 2, win0_7.index t a * S8192x64.size a ≤ (i a).val
          ∧ (i a).val < win0_7.index t a * S8192x64.size a + win0_7.xsize (grid0.coords t) a := by
  show i ∈ ((View.whole main_v23).slice (win0_7.rect t)).set ↔ _
  rw [View.set_slice_whole, Rect.mem_set_unit]
  exact Iff.rfl

/-- Row r of the result array is in the block of point r / 8192, which writes its block back. -/
theorem cover (i : S1000000x64.Idx) :
    ∃ t : Fin cfg0.N, (cfg0.win 7).flush t = true ∧ i ∈ ((cfg0.win 7).blk t).view.set := by
  have hi0 : (i (0 : Fin 2)).val < 1000000 := (i (0 : Fin 2)).isLt
  have hi1 : (i (1 : Fin 2)).val < 64 := (i (1 : Fin 2)).isLt
  have hN : cfg0.N = 123 := N_0
  have ht : (i (0 : Fin 2)).val / 8192 < cfg0.N := by rw [hN]; omega
  obtain ⟨i0, i1, -, -, -, -, -, -, -, -, -, -, -, -, -, x0, x1, -⟩ := grid_facts ⟨(i (0 : Fin 2)).val / 8192, ht⟩
  refine ⟨⟨(i (0 : Fin 2)).val / 8192, ht⟩, flush0_7 _, ?_⟩
  rw [mem_blk]
  intro a
  match a with
  | ⟨0, _⟩ =>
    show win0_7.index ⟨(i (0 : Fin 2)).val / 8192, ht⟩ (0 : Fin 2) * 8192 ≤ (i (0 : Fin 2)).val
      ∧ (i (0 : Fin 2)).val < win0_7.index ⟨(i (0 : Fin 2)).val / 8192, ht⟩ (0 : Fin 2) * 8192
          + win0_7.xsize (grid0.coords ⟨(i (0 : Fin 2)).val / 8192, ht⟩) (0 : Fin 2)
    rw [i0, x0]
    show (i (0 : Fin 2)).val / 8192 * 8192 ≤ (i (0 : Fin 2)).val
      ∧ (i (0 : Fin 2)).val < (i (0 : Fin 2)).val / 8192 * 8192 + min 8192 (1000000 - 8192 * ((i (0 : Fin 2)).val / 8192))
    omega
  | ⟨1, _⟩ =>
    show win0_7.index ⟨(i (0 : Fin 2)).val / 8192, ht⟩ (1 : Fin 2) * 64 ≤ (i (1 : Fin 2)).val
      ∧ (i (1 : Fin 2)).val < win0_7.index ⟨(i (0 : Fin 2)).val / 8192, ht⟩ (1 : Fin 2) * 64
          + win0_7.xsize (grid0.coords ⟨(i (0 : Fin 2)).val / 8192, ht⟩) (1 : Fin 2)
    rw [i1, x1]
    omega

/-- the result array after all 123 write-backs -/
theorem final_out (c : Dev nD) : (Body.dats (F := Ideal) m 0 c).arrAt 7 cfg0.N
    = K (V m c main_v9) (V m c main_arg1) (V m c main_v16) (V m c main_v18) (V m c main_v20) (V m c main_v22) (V m c main_arg5) :=
  (Body.dats (F := Ideal) m 0 c).arrAt_eq_of_cover 7 _ (fun t _ => flushed_eq m c t) cover

end Cert.KernelIdeal.KernelValue

end
-- ==== Proof.HostValues.lean ====
/-
  What the host operations before the kernel's launch leave in the five arrays the kernel stages, as pure terms of
  the program's arguments: the node table rounded to bf16 and gathered at the two index arrays, each index first
  clipped to [0, 99999] and then wrapped as a negative index is, and the three 64-row slices of the weight matrix
  rounded to bf16. At the extended reals a rounded slice read at an index is the weight matrix read at the row the
  slice starts at plus the index's row.
-/
import proofs.«411550_j31447750542169_3_alg».proof.Proof.Gen.KernelIdeal.Frame
import proofs.«411550_j31447750542169_3_alg».proof.Proof.Spec
import Idealize.ShloMosaic.Lib.StableHlo.Run
import Idealize.ShloMosaic.Lib.Pipeline.Value

noncomputable section

namespace Cert.KernelIdeal.HostValues

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-- an index array clipped to [0, 99999] and then wrapped NumPy-style, broadcast to a column: what each gather is handed -/
def normIdx (x : IVec S1000000 32) : IVec S1000000x1 32 :=
  let cl : IVec S1000000 32 := minsi (broadcastInDim S1000000 ![] bcast_S_S1000000 (id (constantI S_ 32 99999#32))) (maxsi (broadcastInDim S1000000 ![] bcast_S_S1000000 (id (constantI S_ 32 0#32))) x)
  broadcastInDim S1000000x1 ![0] bcast_S1000000_S1000000x1_0 (select (cmpi .slt cl (broadcastInDim S1000000 ![] bcast_S_S1000000 (constantI S_ 32 0#32))) (addi cl (broadcastInDim S1000000 ![] bcast_S_S1000000 (constantI S_ 32 100000#32))) cl)

/-- the source nodes' rows: the table rounded to bf16, gathered at the normalised source indices -/
theorem V_src (c : Dev nD) : (V m c main_v9 : (⟨S1000000x64, .bf16⟩ : BufTy).Contents (Elt F)) = Host.gather gather_S100000x64_S1000000x1_S1000000x64_1_0_n_n_0_1_164 (truncf .bf16 (m ((c.tc : Thread nD τ).loc main_arg0)) bitsLt_bf16_f32) (normIdx (m ((c.tc : Thread nD τ).loc main_arg2))) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- the destination nodes' rows: the same table gathered at the normalised destination indices -/
theorem V_dst (c : Dev nD) : (V m c main_v16 : (⟨S1000000x64, .bf16⟩ : BufTy).Contents (Elt F)) = Host.gather gather_S100000x64_S1000000x1_S1000000x64_1_0_n_n_0_1_164 (truncf .bf16 (m ((c.tc : Thread nD τ).loc main_arg0)) bitsLt_bf16_f32) (normIdx (m ((c.tc : Thread nD τ).loc main_arg3))) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- rows [0, 64) of the weights, rounded to bf16 -/
theorem V_wsrc (c : Dev nD) : (V m c main_v18 : (⟨S64x64, .bf16⟩ : BufTy).Contents (Elt F)) = truncf .bf16 (extractStridedSlice S64x64 ![0, 0] (m ((c.tc : Thread nD τ).loc main_arg4)) slices_S192x64_S64x64_0_0) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

/-- rows [64, 128) of the weights, rounded to bf16 -/
theorem V_wedge (c : Dev nD) : (V m c main_v20 : (⟨S64x64, .bf16⟩ : BufTy).Contents (Elt F)) = truncf .bf16 (extractStridedSlice S64x64 ![64, 0] (m ((c.tc : Thread nD τ).loc main_arg4)) slices_S192x64_S64x64_64_0) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

/-- rows [128, 192) of the weights, rounded to bf16 -/
theorem V_wdst (c : Dev nD) : (V m c main_v22 : (⟨S64x64, .bf16⟩ : BufTy).Contents (Elt F)) = truncf .bf16 (extractStridedSlice S64x64 ![128, 0] (m ((c.tc : Thread nD τ).loc main_arg4)) slices_S192x64_S64x64_128_0) bitsLt_bf16_f32 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

/-- at the extended reals a truncated slice of W at rows [64·j, 64·j+64) read at (k, q) is W at (wrow j k, q) -/
theorem wslice_apply0 (W : (⟨S192x64, .f32⟩ : BufTy).Contents (Elt Ideal)) (k q : Fin 64) : (truncf (F := Ideal) .bf16 (extractStridedSlice S64x64 ![0, 0] W slices_S192x64_S64x64_0_0) bitsLt_bf16_f32 : S64x64.Idx → EReal) (ix2 k q) = W (ix2 (EdgeMlp.wrow 0 k) q) := by
  show extractStridedSlice S64x64 ![0, 0] W slices_S192x64_S64x64_0_0 (ix2 k q) = _
  refine extractStridedSlice_apply ![0, 0] W slices_S192x64_S64x64_0_0 (ix2 k q) (ix2 (EdgeMlp.wrow 0 k) q) fun a => ?_
  match a with
  | ⟨0, _⟩ => show 64 * (0 : Fin 3).val + k.val = 0 + k.val; rfl
  | ⟨1, _⟩ => show q.val = 0 + q.val; omega

theorem wslice_apply1 (W : (⟨S192x64, .f32⟩ : BufTy).Contents (Elt Ideal)) (k q : Fin 64) : (truncf (F := Ideal) .bf16 (extractStridedSlice S64x64 ![64, 0] W slices_S192x64_S64x64_64_0) bitsLt_bf16_f32 : S64x64.Idx → EReal) (ix2 k q) = W (ix2 (EdgeMlp.wrow 1 k) q) := by
  show extractStridedSlice S64x64 ![64, 0] W slices_S192x64_S64x64_64_0 (ix2 k q) = _
  refine extractStridedSlice_apply ![64, 0] W slices_S192x64_S64x64_64_0 (ix2 k q) (ix2 (EdgeMlp.wrow 1 k) q) fun a => ?_
  match a with
  | ⟨0, _⟩ => show 64 * (1 : Fin 3).val + k.val = 64 + k.val; rfl
  | ⟨1, _⟩ => show q.val = 0 + q.val; omega

theorem wslice_apply2 (W : (⟨S192x64, .f32⟩ : BufTy).Contents (Elt Ideal)) (k q : Fin 64) : (truncf (F := Ideal) .bf16 (extractStridedSlice S64x64 ![128, 0] W slices_S192x64_S64x64_128_0) bitsLt_bf16_f32 : S64x64.Idx → EReal) (ix2 k q) = W (ix2 (EdgeMlp.wrow 2 k) q) := by
  show extractStridedSlice S64x64 ![128, 0] W slices_S192x64_S64x64_128_0 (ix2 k q) = _
  refine extractStridedSlice_apply ![128, 0] W slices_S192x64_S64x64_128_0 (ix2 k q) (ix2 (EdgeMlp.wrow 2 k) q) fun a => ?_
  match a with
  | ⟨0, _⟩ => show 64 * (2 : Fin 3).val + k.val = 128 + k.val; rfl
  | ⟨1, _⟩ => show q.val = 0 + q.val; omega

end Cert.KernelIdeal.HostValues

end
-- ==== Proof.IndexRange.lean ====
/-
  INDEX WORDS IN RANGE. The precondition says, beside the finiteness of the float arrays, that every word of the two
  index arrays src and dst satisfies 0 ≤ word < 100000 read as a signed 32-bit integer. Such a word is below 100000 read
  unsigned, and on a vector of such words the two index normalisations the program applies are the identity: the wrap of a
  negative index (x < 0 ? x + 100000 : x), because no word is negative, and the clip to [0, 99999]
  (min(99999, max(0, x))), because every word already lies there.
-/
import proofs.«411550_j31447750542169_3_alg».proof.Defs
import proofs.«411550_j31447750542169_3_alg».proof.Proof.Gen.KernelIdeal
import proofs.«411550_j31447750542169_3_alg».proof.Proof.Gen.Pre_finite_inputs
import Idealize.ShloMosaic.Lib.ReduceAll
import Idealize.ShloMosaic.Lib.StableHlo.Predicate

noncomputable section

namespace Cert.KernelIdeal.IndexRange
open Cert.KernelIdeal Idealize.ShloMosaic Idealize.ShloMosaic.TcCoe Idealize.SL.Sem
open Cert.KernelIdeal.Facts₀

/-! ## One word: a 32-bit word in [0, n) signed is the same word read unsigned -/

/-- A word that is nonnegative and below n read signed (n below 2³¹) is below n read unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have hlt := w.isLt
  rw [BitVec.toInt_eq_toNat_cond] at h0 h1
  split at h0 <;> omega

/-- A word below 100000 unsigned reads the same signed. -/
theorem toInt_of_lt (w : BitVec 32) (hw : w.toNat < 100000) : w.toInt = (w.toNat : Int) :=
  StableHlo.Predicate.toInt_eq_toNat_of_lt (by omega)

/-- Such a word is not negative: the signed comparison with 0 is false. -/
theorem not_slt_zero (w : BitVec 32) (hw : w.toNat < 100000) : IntOp.cmpi .slt w 0#32 ≠ 1#1 := by
  rw [Ne, IntOp.cmpi_slt, toInt_of_lt w hw]
  have hz : (0#32 : BitVec 32).toInt = 0 := by decide
  rw [hz]; omega

/-- The signed maximum of 0 and such a word is the word. -/
theorem maxsi_zero (w : BitVec 32) (hw : w.toNat < 100000) : IntOp.maxsi 0#32 w = w := by
  unfold IntOp.maxsi
  have hz : (0#32 : BitVec 32).toInt = 0 := by decide
  have : ¬ (w.slt 0#32 = true) := by
    rw [BitVec.slt_iff_toInt_lt, toInt_of_lt w hw, hz]; omega
  rw [if_neg this]

/-- The signed minimum of 99999 and such a word is the word. -/
theorem minsi_top (w : BitVec 32) (hw : w.toNat < 100000) : IntOp.minsi 99999#32 w = w := by
  unfold IntOp.minsi
  have hz : (99999#32 : BitVec 32).toInt = 99999 := by decide
  by_cases hc : (99999#32 : BitVec 32).slt w = true
  · rw [BitVec.slt_iff_toInt_lt, toInt_of_lt w hw, hz] at hc
    rw [if_pos (by rw [BitVec.slt_iff_toInt_lt, toInt_of_lt w hw, hz]; exact hc)]
    apply BitVec.eq_of_toNat_eq
    have : (99999#32 : BitVec 32).toNat = 99999 := by decide
    rw [this]; omega
  · rw [if_neg hc]

/-! ## The precondition decoded -/

/-- The scalar shape has one index. -/
instance : Subsingleton S_.Idx := ⟨fun a b => funext fun d => d.elim0⟩

/-- From the two comparisons of one array all being true: every word is in range. -/
theorem all_lt (x : IVec S1000000 32)
    (a : ∀ i : S1000000.Idx, IntOp.andi (IntOp.cmpi .sge (x i) 0#32) (IntOp.cmpi .slt (x i) 100000#32) = 1#1) (i : S1000000.Idx) :
    (x i).toNat < 100000 := by
  obtain ⟨g0, g1⟩ := IntOp.andi_eq_one.1 (a i)
  exact toNat_lt_of_signed_range (x i) 100000 (by decide) g0 g1

/-- every word of both index arrays is below 100000 unsigned (that is: 0 ≤ word < 100000 signed) -/
theorem range_of_pre (m : (ℓ : Loc nD τ sig) → Buf (Elt Ideal) ℓ) (h : Cert.Pre_KernelIdeal m) (c : Dev nD) :
    (∀ i : S1000000.Idx, (m ((c.tc : Thread nD τ).loc main_arg2) i).toNat < 100000) ∧ (∀ i : S1000000.Idx, (m ((c.tc : Thread nD τ).loc main_arg3) i).toNat < 100000) := by
  have e := congrFun (h c) (fun d => d.elim0)
  dsimp only [Cert.Pre_finite_inputs.fn, Cert.Pre_finite_inputs.fn_part1] at e
  -- the printed conjunction: ((((finite₀ ∧ finite₁) ∧ finite₄) ∧ finite₅) ∧ all src) ∧ all dst
  obtain ⟨e1, e3⟩ := IntOp.andi_eq_one.1 e
  obtain ⟨-, e2⟩ := IntOp.andi_eq_one.1 e1
  exact ⟨all_lt _ (Host.reduce_andi_all _ _ _ _ _ e2), all_lt _ (Host.reduce_andi_all _ _ _ _ _ e3)⟩

/-! ## The two index normalisations on a vector of words in range -/

/-- NumPy's wrap of a negative index (x < 0 ? x + 100000 : x) is the identity on words in range -/
theorem wrap_id (x : IVec S1000000 32) (hx : ∀ i, (x i).toNat < 100000) :
    select (cmpi .slt x (broadcastInDim S1000000 ![] bcast_S_S1000000 (constantI S_ 32 0#32))) (addi x (broadcastInDim S1000000 ![] bcast_S_S1000000 (constantI S_ 32 100000#32))) x = x := by
  funext i
  simp only [select, cmpi, broadcastInDim, constantI]
  unfold Scalar.select
  exact if_neg (not_slt_zero (x i) (hx i))

/-- clipping to [0, 99999] (min(99999, max(0, x))) is the identity on words in range; the two id's are the printed stablehlo.convert of an i32 to i32 -/
theorem clip_id (x : IVec S1000000 32) (hx : ∀ i, (x i).toNat < 100000) :
    minsi (broadcastInDim S1000000 ![] bcast_S_S1000000 (id (constantI S_ 32 99999#32))) (maxsi (broadcastInDim S1000000 ![] bcast_S_S1000000 (id (constantI S_ 32 0#32))) x) = x := by
  funext i
  simp only [minsi, maxsi, broadcastInDim, constantI, id]
  rw [maxsi_zero (x i) (hx i), minsi_top (x i) (hx i)]

end Cert.KernelIdeal.IndexRange

end
-- ==== Proof.Glue.lean ====
/-
  Where the two programs' node gathers meet.

  The kernel clips each index into [0, 99999], then wraps a negative one by 100000 (a no-op after the clip), then gathers
  from the node table cast to bf16; the reference wraps, then gathers from the table itself. On indices in [0, 100000)
  the clip is the identity, and over the extended reals so is the cast: the kernel's gathered array is then the
  reference's own gather stage, word for word.
-/
import proofs.«411550_j31447750542169_3_alg».proof.Proof.HostValues
import proofs.«411550_j31447750542169_3_alg».proof.Proof.IndexRange
import proofs.«411550_j31447750542169_3_alg».proof.Proof.Gen.ReferenceIdeal.Read

noncomputable section

namespace Cert.KernelIdeal.Glue

open Cert.KernelIdeal Cert.KernelIdeal.Gen Idealize.ShloMosaic Idealize.ShloMosaic.TcCoe Idealize.SL.Sem

/-- In range, the kernel's normalised index column (clip, wrap, broadcast to a column) is the reference's (wrap,
    broadcast) for the source indices, -/
theorem normIdx_src (x : IVec S1000000 32) (hx : ∀ i, (x i).toNat < 100000) :
    HostValues.normIdx x = Cert.ReferenceIdeal.Read.val_main_v5 (F := Ideal) x := by
  dsimp only [HostValues.normIdx]
  rw [IndexRange.clip_id x hx]
  rfl

/-- and for the destination indices. -/
theorem normIdx_dst (x : IVec S1000000 32) (hx : ∀ i, (x i).toNat < 100000) :
    HostValues.normIdx x = Cert.ReferenceIdeal.Read.val_main_v12 (F := Ideal) x := by
  dsimp only [HostValues.normIdx]
  rw [IndexRange.clip_id x hx]
  rfl

variable (m : (ℓ : Loc nD τ sig) → Buf (Elt Ideal) ℓ)

/-- Under the precondition the array the kernel's first row window stages is the reference's gather of the source rows, -/
theorem gathered_src (hpre : Cert.Pre_KernelIdeal m) (c : Dev nD) :
    (V m c main_v9 : S1000000x64.Idx → EReal)
      = Cert.ReferenceIdeal.Read.val_main_v6 (F := Ideal) (m ((c.tc : Thread nD τ).loc main_arg0)) (m ((c.tc : Thread nD τ).loc main_arg2)) := by
  rw [HostValues.V_src, normIdx_src _ (IndexRange.range_of_pre m hpre c).1]
  rfl

/-- and the one its third stages the reference's gather of the destination rows. -/
theorem gathered_dst (hpre : Cert.Pre_KernelIdeal m) (c : Dev nD) :
    (V m c main_v16 : S1000000x64.Idx → EReal)
      = Cert.ReferenceIdeal.Read.val_main_v13 (F := Ideal) (m ((c.tc : Thread nD τ).loc main_arg0)) (m ((c.tc : Thread nD τ).loc main_arg3)) := by
  rw [HostValues.V_dst, normIdx_dst _ (IndexRange.range_of_pre m hpre c).2]
  rfl

end Cert.KernelIdeal.Glue

end
-- ==== Proof.RunI.lean ====
/-
  The idealized kernel's run, with its result named.

  Every weakly fair execution of the idealized program terminates; the six arguments end unchanged; and, when both index
  arrays lie in [0, 100000), the result array ends holding the layer's function `EdgeMlp.G` of the reference's own two
  gathers, the edge features, the weights and the bias: the array is covered block by block by what the body writes
  back (the last block cut to its rows inside the array), each block that function's block; the three 64 × 64 weight
  blocks the kernel is handed are the three stretches of rows of the 192 × 64 matrix.
-/
import proofs.«411550_j31447750542169_3_alg».proof.Proof.BodyI
import proofs.«411550_j31447750542169_3_alg».proof.Proof.KernelValue
import proofs.«411550_j31447750542169_3_alg».proof.Proof.Glue
import proofs.«411550_j31447750542169_3_alg».proof.Proof.Spec

noncomputable section

namespace Cert.KernelIdeal.Run

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The layer's value, over the reference's own gather stages. -/
abbrev result (c : Dev nD) : S1000000x64.Idx → EReal :=
  EdgeMlp.G (Cert.ReferenceIdeal.Read.val_main_v6 (F := Ideal) (m ((c.tc : Thread nD τ).loc main_arg0)) (m ((c.tc : Thread nD τ).loc main_arg2)))
    (m ((c.tc : Thread nD τ).loc main_arg1))
    (Cert.ReferenceIdeal.Read.val_main_v13 (F := Ideal) (m ((c.tc : Thread nD τ).loc main_arg0)) (m ((c.tc : Thread nD τ).loc main_arg3)))
    (m ((c.tc : Thread nD τ).loc main_arg4)) (m ((c.tc : Thread nD τ).loc main_arg5))

/-- One entry depends on its three weight columns only through their values. -/
theorem entry_congr_weights {xs xe xd ws we wd ws' we' wd' : Fin 64 → EReal} {b z : EReal}
    (h0 : ∀ k, ws k = ws' k) (h1 : ∀ k, we k = we' k) (h2 : ∀ k, wd k = wd' k) :
    EdgeMlp.entry xs xe xd ws we wd b z = EdgeMlp.entry xs xe xd ws' we' wd' b z := by
  rw [show ws = ws' from funext h0, show we = we' from funext h1, show wd = wd' from funext h2]

/-- With the three weight blocks the three stretches of 64 rows of `W` (each cast to bf16, the identity here), the
    kernel's arrangement is the layer's function: a slice at rows [64 j, 64 j + 64) read at (k, q) is `W` at (64 j + k, q). -/
theorem K_eq_G (gs ef gd : S1000000x64.Idx → EReal) (W : (⟨S192x64, .f32⟩ : BufTy).Contents (Elt Ideal)) (b : S64.Idx → EReal) :
    KernelValue.K gs ef gd
        (truncf (F := Ideal) .bf16 (extractStridedSlice S64x64 ![0, 0] W slices_S192x64_S64x64_0_0) bitsLt_bf16_f32)
        (truncf (F := Ideal) .bf16 (extractStridedSlice S64x64 ![64, 0] W slices_S192x64_S64x64_64_0) bitsLt_bf16_f32)
        (truncf (F := Ideal) .bf16 (extractStridedSlice S64x64 ![128, 0] W slices_S192x64_S64x64_128_0) bitsLt_bf16_f32) b
      = EdgeMlp.G gs ef gd W b := by
  funext i
  obtain ⟨e, q, rfl⟩ : ∃ (e : Fin 1000000) (q : Fin 64), i = ix2 e q := ⟨i 0, i 1, eq_ix2 i⟩
  exact entry_congr_weights (fun k => HostValues.wslice_apply0 W k q) (fun k => HostValues.wslice_apply1 W k q)
    (fun k => HostValues.wslice_apply2 W k q)

/-- The kernel's whole-array function at the arrays the launch finds is the layer's function of the arguments: the two
    gathered arrays are the reference's (indices in range), the weight blocks the three stretches of rows. -/
theorem K_is_G (hpre : Cert.Pre_KernelIdeal m) (c : Dev nD) :
    KernelValue.K (V m c main_v9) (V m c main_arg1) (V m c main_v16) (V m c main_v18) (V m c main_v20) (V m c main_v22) (V m c main_arg5)
      = result m c := by
  rw [Glue.gathered_src m hpre c, Glue.gathered_dst m hpre c, HostValues.V_wsrc, HostValues.V_wedge, HostValues.V_wdst,
    V_main_arg1, V_main_arg5]
  exact K_eq_G _ _ _ _ _

set_option backward.isDefEq.respectTransparency.types false in
/-- The frame run: every array of the pipeline ends at what the proof data computes, every other buffer as the launch
    found it. -/
theorem run_main : θ_run defs (onTc (τ := τ) (main (F := Ideal))) (s₀ m ρ) (Pipeline.FramePost cfgs (Body.dats m) 0 (V m)) :=
  Pipeline.θ_run_frame cfgs (Body.dats m) (0 : Fin 1) launch0 defs₀ Variants.none m ρ main
    (hbody := fun c => Body.body_obligation m (KernelValue.rowLocal m) c)
    (hshare := fun c => (Body.dats m 0 c).share_full fun _ => rfl)
    (howed := fun _ _ => rfl) (V := V m) (hmain := hmain m Variants.none) (hA := Body.A_eq m) (hΦ := fun _ _ => rfl)

/-- The frame: the program runs to the end and its six argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (Body.dats m) (Body.A_eq m) (run_main m ρ)

/-- The run with the result named, under the precondition. -/
theorem run_value (hpre : Cert.Pre_KernelIdeal m) :
    θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.FramePost cfgs (Body.dats m) 0 (V m) r) c =>
    ⟨((h c).1 7).trans ((KernelValue.final_out m c).trans (K_is_G m hpre c)),
      ((h c).2 main_arg0 (Pipeline.mem_restRefs_of main_arg0 (by decide) (by decide))).trans (V_main_arg0 m c),
      ((h c).1 1).trans (((Body.dats m 0 c).arrAt_in 1 rfl _).trans ((Body.A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 6).trans (((Body.dats m 0 c).arrAt_in 6 rfl _).trans ((Body.A_eq m c 6).trans (V_main_arg5 m c)))⟩) (run_main m ρ)

end Cert.KernelIdeal.Run

end
-- ==== Proof.RefValue.lean ====
/-
  The reference program's value is the layer's function.

  At index (e, q) the reference computes max(∑_{k<192} cat(e,k) · W(k,q) + b(q), 0), where cat(e,·) is the three rows
  of the edge side by side: column k of the concatenation is column k of the first piece for k < 64, column k - 64 of
  the second for 64 ≤ k < 128, column k - 128 of the third for 128 ≤ k. The sum over 192 columns is the sum of its three
  stretches of 64, and on each stretch the concatenation is one of the pieces, so the 192-sum is the three 64-long
  dot products of the layer's entry.
-/
import proofs.«411550_j31447750542169_3_alg».proof.Proof.Gen.ReferenceIdeal.Read
import proofs.«411550_j31447750542169_3_alg».proof.Proof.Spec

noncomputable section

open scoped BigOperators

namespace Cert.ReferenceIdeal.RefValue

open Cert.ReferenceIdeal Cert.ReferenceIdeal.Read Idealize.ShloMosaic Idealize.ShloMosaic.ValueIdx

section Cat
variable {α : Type}

/-- The concatenation of three 64-column pieces, at a column of the first stretch, is the first piece there. -/
theorem cat_fst (y0 y1 y2 : S1000000x64.Idx → α)
    (h : Shape.Concatenates [S1000000x64, S1000000x64, S1000000x64] S1000000x192 1) (e : Fin 1000000) (k : Fin 64) :
    concatenate S1000000x192 1 [⟨S1000000x64, y0⟩, ⟨S1000000x64, y1⟩, ⟨S1000000x64, y2⟩] h (ix2 e (EdgeMlp.wrow 0 k)) = y0 (ix2 e k) := by
  refine concatenate_apply_piece (1 : Fin S1000000x192.rank) _ _ _ 0 (by simp) S1000000x64 y0 rfl rfl 0 rfl (ix2 e k) ?_ ?_
  · intro b hb
    match b with
    | ⟨0, _⟩ => rfl
    | ⟨1, _⟩ => exact absurd rfl hb
  · show 0 + k.val = 64 * (0 : Fin 3).val + k.val
    simp

/-- At a column of the second stretch it is the second piece, 64 columns back. -/
theorem cat_snd (y0 y1 y2 : S1000000x64.Idx → α)
    (h : Shape.Concatenates [S1000000x64, S1000000x64, S1000000x64] S1000000x192 1) (e : Fin 1000000) (k : Fin 64) :
    concatenate S1000000x192 1 [⟨S1000000x64, y0⟩, ⟨S1000000x64, y1⟩, ⟨S1000000x64, y2⟩] h (ix2 e (EdgeMlp.wrow 1 k)) = y1 (ix2 e k) := by
  refine concatenate_apply_piece (1 : Fin S1000000x192.rank) _ _ _ 1 (by simp) S1000000x64 y1 rfl rfl 64 rfl (ix2 e k) ?_ ?_
  · intro b hb
    match b with
    | ⟨0, _⟩ => rfl
    | ⟨1, _⟩ => exact absurd rfl hb
  · show 64 + k.val = 64 * (1 : Fin 3).val + k.val
    simp

/-- At a column of the third stretch it is the third piece, 128 columns back. -/
theorem cat_trd (y0 y1 y2 : S1000000x64.Idx → α)
    (h : Shape.Concatenates [S1000000x64, S1000000x64, S1000000x64] S1000000x192 1) (e : Fin 1000000) (k : Fin 64) :
    concatenate S1000000x192 1 [⟨S1000000x64, y0⟩, ⟨S1000000x64, y1⟩, ⟨S1000000x64, y2⟩] h (ix2 e (EdgeMlp.wrow 2 k)) = y2 (ix2 e k) := by
  refine concatenate_apply_piece (1 : Fin S1000000x192.rank) _ _ _ 2 (by simp) S1000000x64 y2 rfl rfl 128 rfl (ix2 e k) ?_ ?_
  · intro b hb
    match b with
    | ⟨0, _⟩ => rfl
    | ⟨1, _⟩ => exact absurd rfl hb
  · show 128 + k.val = 64 * (2 : Fin 3).val + k.val
    simp

end Cat

/-- The row of the concatenation that the contraction reads at output index (e, q) and column k. -/
theorem lidx_eq (e : Fin 1000000) (q : Fin 64) (k : Fin 192) :
    lidx_main_v15 (ix2 e q) k = ix2 e k :=
  funext fun a => Fin.ext (by match a with | ⟨0, _⟩ => rfl | ⟨1, _⟩ => rfl)

/-- The weight entry that the contraction reads at output index (e, q) and row k. -/
theorem ridx_eq (e : Fin 1000000) (q : Fin 64) (k : Fin 192) :
    ridx_main_v15 (ix2 e q) k = ix2 k q :=
  funext fun a => Fin.ext (by match a with | ⟨0, _⟩ => rfl | ⟨1, _⟩ => rfl)

/-- The bias entry that the two broadcasts read at output index (e, q). -/
theorem bidx_eq (e : Fin 1000000) (q : Fin 64) :
    idx_main_v16 (idx_main_v17 (ix2 e q)) = ix1 q :=
  funext fun a => Fin.ext (by match a with | ⟨0, _⟩ => rfl)

theorem ref_is_G (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal)) (x5 : (⟨S64, .f32⟩ : BufTy).Contents (Elt Ideal)) :
    val_main_v19 (F := Ideal) x0 x1 x2 x3 x4 x5 = EdgeMlp.G (val_main_v6 (F := Ideal) x0 x2) x1 (val_main_v13 (F := Ideal) x0 x3) x4 x5 := by
  funext i
  obtain ⟨e, q, rfl⟩ : ∃ (e : Fin 1000000) (q : Fin 64), i = ix2 e q := ⟨i 0, i 1, eq_ix2 i⟩
  rw [val_main_v19_apply, val_main_v18_apply, val_main_v15_apply, val_main_v17_apply, val_main_v16_apply,
    val_main_call0_v0_apply, val_main_call0_cst_apply]
  rw [EdgeMlp.sum_three_stretches]
  unfold val_main_v14
  simp only [lidx_eq, ridx_eq, bidx_eq, cat_fst, cat_snd, cat_trd, Ideal.maximumf_def, Ideal.addf_def, Ideal.ofBits_def]
  rfl

end Cert.ReferenceIdeal.RefValue

end
-- ==== Proof.lean ====
/-
  An edge update of a message-passing layer — relu([x_src(e), f(e), x_dst(e)] · W + b) for each of 1,000,000 edges over a
  100,000-row node table — computed by a tiled kernel and by a plain reference, shown equal over the extended reals.

  The kernel gathers the two end nodes' rows on the host (from the table cast to bf16, the indices first clipped into
  [0, 99999]), then streams the edges through a pipeline in blocks of 8192 rows: per block three 64-deep products with
  the three stretches of 64 rows of W, added, plus the bias, rectified. 1,000,000 is not a multiple of 8192, so the last
  of the 123 blocks overhangs the arrays by 7616 rows: its fetches fill only 576 rows of each row buffer, what lies
  below them is arbitrary, and its write-back writes only 576 rows. Row p of a block's result reads only row p of the
  three row operands, so the rows written back never depend on the arbitrary part.

  The reference gathers the rows with NumPy's convention (a negative index counts from the end), concatenates the three
  rows and contracts all 192 columns at once. A sum over 192 indices is the sum of its three stretches of 64 (only
  commutativity and associativity of addition: true at the infinities too), a cast between float formats is the
  identity over the extended reals, and on indices in [0, 100000) the clip and the wrap are both the identity — which
  is what the precondition's two index conjuncts say. At an index outside that range the two programs read different
  rows (at −1 the reference reads row 99999, the kernel row 0), so the range is needed, and both of its ends are used.

  The three frames: each program runs to the end and leaves its six arguments unchanged. For the word-level kernel
  nothing is said of the result array; for the idealized kernel the same run names it; the reference's frame is its run
  with the result dropped. The idealization rewrote nothing, so there is nothing to preserve.
-/
import proofs.«411550_j31447750542169_3_alg».proof.Defs
import proofs.«411550_j31447750542169_3_alg».proof.Proof.Gen.Kernel
import proofs.«411550_j31447750542169_3_alg».proof.Proof.Gen.KernelIdeal
import proofs.«411550_j31447750542169_3_alg».proof.Proof.Gen.ReferenceIdeal
import proofs.«411550_j31447750542169_3_alg».proof.Proof.Gen.ReferenceIdeal.Run
import proofs.«411550_j31447750542169_3_alg».proof.Proof.Gen.ReferenceIdeal.Read
import proofs.«411550_j31447750542169_3_alg».proof.Proof.Gen.Pre_finite_inputs
import proofs.«411550_j31447750542169_3_alg».proof.Proof.BodyK
import proofs.«411550_j31447750542169_3_alg».proof.Proof.RunI
import proofs.«411550_j31447750542169_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame (F := Bits) m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the layer's function of the arguments: the kernel by its run
    with the result named, the reference because its last stage is that function of its own two gathers, and the two
    memories agree on the arguments. -/
theorem algebraic : Cert.algebraic_KernelIdeal_ReferenceIdeal := by
  intro m ρ m' ρ' hpre hagree
  refine ⟨fun c => Cert.KernelIdeal.Run.result m c, Cert.KernelIdeal.Run.run_value m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_is_G,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
